-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8192 : Shape := ⟨3, ![16, 512, 8192]⟩
abbrev S512x8192 : Shape := ⟨2, ![512, 8192]⟩
abbrev S_ : Shape := ⟨0, ![]⟩

class Facts : Prop where
  bcast_S_S16x512x8192 : S_.BroadcastsInDim S16x512x8192 (![] : Fin 0 → Fin S16x512x8192.rank)
  reducesTo_S16x512x8192_S_d0_1_2 : S16x512x8192.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S16x512x8192 .f32) (main_arg1 : FVec F S512x8192 .f32) : IVec S_ 1 :=
  let main_v0 : FVec F S16x512x8192 .f32 := Host.absf main_arg0
  let main_cst : FVec F S_ .f32 := constant S_ .f32 0x7F800000#32
  let main_v1 : FVec F S16x512x8192 .f32 := broadcastInDim S16x512x8192 ![] bcast_S_S16x512x8192 main_cst
  let main_v2 : IVec S16x512x8192 1 := cmpf .olt main_v0 main_v1
  let main_c : IVec S_ 1 := constantI S_ 1 1#1
  let main_v3 : IVec S_ 1 := (fun x v => Host.reduce IntOp.andi x v reducesTo_S16x512x8192_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S16x512x8192 : Shape := ⟨3, ![16, 512, 8192]⟩
abbrev S512x8192 : Shape := ⟨2, ![512, 8192]⟩
abbrev S8192x8192 : Shape := ⟨2, ![8192, 8192]⟩
abbrev S8192x512 : Shape := ⟨2, ![8192, 512]⟩
abbrev S1024x2048 : Shape := ⟨2, ![1024, 2048]⟩
abbrev S512x2048 : Shape := ⟨2, ![512, 2048]⟩
abbrev S1024x512 : Shape := ⟨2, ![1024, 512]⟩
abbrev S16x512x512 : Shape := ⟨3, ![16, 512, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x512x8192, .f32⟩
  | .hbm, ⟨1, _⟩ => ⟨S512x8192, .f32⟩
  | .hbm, ⟨2, _⟩ => ⟨S8192x8192, .f32⟩
  | .hbm, ⟨3, _⟩ => ⟨S8192x512, .f32⟩
  | .hbm, ⟨4, _⟩ => ⟨S16x512x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x512x8192_S8192x8192 : S16x512x8192.ShapeCasts S8192x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S8192x512_S16x512x512 : S8192x512.ShapeCasts S16x512x512
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x8192.size a
  hwx0_1 : ∀ i : grid0.Coords, EltTy.bits .f32 = 32 ∨ (Rect.block (s := S512x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x512x8192 : Shape := ⟨3, ![16, 512, 8192]⟩
abbrev S512x8192 : Shape := ⟨2, ![512, 8192]⟩
abbrev S16x512x512 : Shape := ⟨3, ![16, 512, 512]⟩

abbrev nBuf : Space → Nat
  | .hbm => 4
  | .vmem => 0
  | .smem => 0
  | _ => 0

abbrev bufTy : (tb : Table) → Fin (tcTables nBuf tb) → BufTy
  | .hbm, ⟨0, _⟩ => ⟨S16x512x8192, .f32⟩
  | .hbm, ⟨1, _⟩ => ⟨S512x8192, .f32⟩
  | .hbm, ⟨2, _⟩ => ⟨S16x512x512, .f32⟩
  | .hbm, ⟨3, _⟩ => ⟨S16x512x512, .f32⟩
  | _, _ => ⟨S16x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S16x512x8192_S512x8192_S16x512x512_2_1_01_0_n_n_wf : DotDims.WF S16x512x8192 S512x8192 S16x512x512 [2] [1] [0, 1] [0] [] []

variable [Facts₀]

def dot_S16x512x8192_S512x8192_S16x512x512_2_1_01_0_n_n : DotDims S16x512x8192 S512x8192 S16x512x512 where
  lhsContracting := [2]
  rhsContracting := [1]
  lhsNonContracting := [0, 1]
  rhsNonContracting := [0]
  lhsBatch := []
  rhsBatch := []
  wf := dot_S16x512x8192_S512x8192_S16x512x512_2_1_01_0_n_n_wf

class Facts : Prop extends Facts₀ where

variable [Facts]
-- ==== Proof.Pieces.lean ====
/-
  What one run of the kernel body leaves behind, in each of its three control cases, as a value.

  The body's two conditionals depend only on the position `k` along the column axis of the grid: at `k = 0` it first
  stores zeros into the running block (the scratch), at every `k` it adds the product of the two input blocks to the
  running block, and at `k = 3` it stores `tanh` of the running block into the output block. Each store covers its
  whole buffer, so what a buffer holds afterwards is the last stored value, and a load that follows a store reads
  what was stored. Hence:
    * first stretch (`k = 0`): the scratch ends at  update(x-block, W-block, zeros);
    * middle stretches (`k = 1, 2`): at  update(x-block, W-block, what the scratch held);
    * last stretch (`k = 3`): the same, and the output block at `tanh` of that.
  Stated for any float instance: nothing here looks inside the stored values.
-/
import proofs.«164144_j53936199303290_1_alg».proof.Proof.Gen.KernelIdeal.Frame
import Idealize.ShloMosaic.Lib.Pipeline.Value
import Idealize.ShloMosaic.Lib.Tactic

noncomputable section

namespace Cert.CharEmbed.Cases

open Cert.KernelIdeal Cert.KernelIdeal.Gen Idealize.ShloMosaic Idealize.ShloMosaic.TcCoe Idealize.ShloMosaic.Tactic Idealize.SL.Sem

variable {F : FTy → Type} [FloatOps F]

/-- Every access of the body is at the origin of its buffer. -/
theorem origin : (![0, 0] : Fin 2 → Nat) = fun _ => 0 := funext fun a => by fin_cases a <;> rfl

/-- First stretch: the scratch is zeroed, read back, and updated. -/
theorem scratch_first (c : Dev nD) (i : grid0.Coords) (a2 : Memref sig .tc .vmem S1024x2048 .f32) (h2 : a2.IsWhole) (a3 : Memref sig .tc .vmem S512x2048 .f32) (h3 : a3.IsWhole) (a4 : Memref sig .tc .vmem S1024x512 .f32) (h4 : a4.IsWhole) (a5 : Memref sig .tc .vmem S1024x512 .f32) (h5 : a5.IsWhole) (hc0 : cond0_0 i) (hc1 : ¬cond0_1 i)
    (xb : Vec F S1024x2048 .f32) (wb : Vec F S512x2048 .f32) :
    sout0_A_0 c i a2 h2 a3 h3 a4 h4 a5 h5 hc0 hc1 xb wb = k0_pay2 xb wb (k0_pay1 (F := F)) := by
  unfold sout0_A_0
  rw [View.read_writes_eq_canon _ _ _ (scover0_A_0 c i a2 h2 a3 h3 a4 h4 a5 h5 hc0 hc1 xb wb)]
  unfold kernelRun0_A
  dsimp only
  sl_unfold_words
  rw [View.canon_cons_unit_zero (S := S1024x512) origin, View.readCov_unit_zero (S := S1024x512) _ origin]
  simp only [View.readAt_eq_ld, h2.read_unread, h3.read_unread, h5.read_unread, View.ld_unit_zero (S := S1024x2048) origin,
    View.ld_unit_zero (S := S512x2048) origin, View.ld_unit_zero (S := S1024x512) origin]

/-- Middle stretches: the scratch, found at `acc`, is updated. -/
theorem scratch_middle (c : Dev nD) (i : grid0.Coords) (a2 : Memref sig .tc .vmem S1024x2048 .f32) (h2 : a2.IsWhole) (a3 : Memref sig .tc .vmem S512x2048 .f32) (h3 : a3.IsWhole) (a4 : Memref sig .tc .vmem S1024x512 .f32) (h4 : a4.IsWhole) (a5 : Memref sig .tc .vmem S1024x512 .f32) (h5 : a5.IsWhole) (hc0 : ¬cond0_0 i) (hc1 : ¬cond0_1 i)
    (xb : Vec F S1024x2048 .f32) (wb : Vec F S512x2048 .f32) (acc : Vec F S1024x512 .f32) :
    sout0_B_0 c i a2 h2 a3 h3 a4 h4 a5 h5 hc0 hc1 xb wb acc = k0_pay2 xb wb acc := by
  unfold sout0_B_0
  rw [View.read_writes_eq_canon _ _ _ (scover0_B_0 c i a2 h2 a3 h3 a4 h4 a5 h5 hc0 hc1 xb wb acc)]
  unfold kernelRun0_B
  dsimp only
  sl_unfold_words
  rw [View.canon_unit_zero (S := S1024x512) origin]
  simp only [View.readAt_eq_ld, h2.read_unread, h3.read_unread, h5.read_unread, View.ld_unit_zero (S := S1024x2048) origin,
    View.ld_unit_zero (S := S512x2048) origin, View.ld_unit_zero (S := S1024x512) origin]

/-- Last stretch: the scratch, found at `acc`, is updated the same way, -/
theorem scratch_last (c : Dev nD) (i : grid0.Coords) (a2 : Memref sig .tc .vmem S1024x2048 .f32) (h2 : a2.IsWhole) (a3 : Memref sig .tc .vmem S512x2048 .f32) (h3 : a3.IsWhole) (a4 : Memref sig .tc .vmem S1024x512 .f32) (h4 : a4.IsWhole) (a5 : Memref sig .tc .vmem S1024x512 .f32) (h5 : a5.IsWhole) (hc0 : ¬cond0_0 i) (hc1 : cond0_1 i)
    (xb : Vec F S1024x2048 .f32) (wb : Vec F S512x2048 .f32) (acc : Vec F S1024x512 .f32) :
    sout0_C_0 c i a2 h2 a3 h3 a4 h4 a5 h5 hc0 hc1 xb wb acc = k0_pay2 xb wb acc := by
  unfold sout0_C_0
  rw [View.read_writes_eq_canon _ _ _ (scover0_C_0 c i a2 h2 a3 h3 a4 h4 a5 h5 hc0 hc1 xb wb acc)]
  unfold kernelRun0_C
  dsimp only
  sl_unfold_words
  rw [View.canon_unit_zero (S := S1024x512) origin]
  simp only [View.readAt_eq_ld, h2.read_unread, h3.read_unread, h5.read_unread, View.ld_unit_zero (S := S1024x2048) origin,
    View.ld_unit_zero (S := S512x2048) origin, View.ld_unit_zero (S := S1024x512) origin]

/-- and the output block is the last payload of the updated scratch, read back after its store. -/
theorem out_last (c : Dev nD) (i : grid0.Coords) (a2 : Memref sig .tc .vmem S1024x2048 .f32) (h2 : a2.IsWhole) (a3 : Memref sig .tc .vmem S512x2048 .f32) (h3 : a3.IsWhole) (a4 : Memref sig .tc .vmem S1024x512 .f32) (h4 : a4.IsWhole) (a5 : Memref sig .tc .vmem S1024x512 .f32) (h5 : a5.IsWhole) (hc0 : ¬cond0_0 i) (hc1 : cond0_1 i)
    (xb : Vec F S1024x2048 .f32) (wb : Vec F S512x2048 .f32) (acc : Vec F S1024x512 .f32) :
    out0_C_2 c i a2 h2 a3 h3 a4 h4 a5 h5 hc0 hc1 xb wb acc = k0_pay3 (k0_pay2 xb wb acc) := by
  unfold out0_C_2
  rw [View.read_writes_eq_canon _ _ _ (cover0_C_2 c i a2 h2 a3 h3 a4 h4 a5 h5 hc0 hc1 xb wb acc)]
  unfold kernelRun0_C
  dsimp only
  sl_unfold_words
  rw [View.canon_unit_zero (S := S1024x512) origin, View.readCov_unit_zero (S := S1024x512) _ origin]
  simp only [View.readAt_eq_ld, h2.read_unread, h3.read_unread, h5.read_unread, View.ld_unit_zero (S := S1024x2048) origin,
    View.ld_unit_zero (S := S512x2048) origin, View.ld_unit_zero (S := S1024x512) origin]

end Cert.CharEmbed.Cases

end
-- ==== Proof.Payloads.lean ====
/-
  The kernel body's three stored values, read at an entry, over the extended reals.

  The reset stores a block of zeros. The update stores, at entry `(p, q)` of the running [1024, 512] block, what the
  block held there plus the contraction of row `p` of the [1024, 2048] block of `x` with row `q` of the [512, 2048]
  block of `W` over the 2048 columns they share: the narrowing of both operands to bf16 is the identity on extended
  reals, a matrix product into a zero accumulator is the plain sum of products, and both operands are contracted on
  their SECOND axis (the product is `x · Wᵀ`). The last store is `tanh` entry by entry.
-/
import proofs.«164144_j53936199303290_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.CharEmbed.Body

open Cert.KernelIdeal Cert.KernelIdeal.Gen Idealize.ShloMosaic Idealize.ShloMosaic.ValueIdx

/-! ## The matrix product's operand indices, axis by axis -/

/-- The left operand's row is the output's row; -/
theorem lhs_axis0 (i : S1024x512.Idx) (k : dot_S1024x2048_S512x2048_S1024x512_1_1_0_0_n_n.contr.Idx) :
    (dot_S1024x2048_S512x2048_S1024x512_1_1_0_0_n_n.lhsIdx i k 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
/-- its column is the contraction position. -/
theorem lhs_axis1 (i : S1024x512.Idx) (k : dot_S1024x2048_S512x2048_S1024x512_1_1_0_0_n_n.contr.Idx) :
    (dot_S1024x2048_S512x2048_S1024x512_1_1_0_0_n_n.lhsIdx i k 1).val = (k ⟨0, by decide⟩).val :=
  dot_S1024x2048_S512x2048_S1024x512_1_1_0_0_n_n.lhsIdx_val_of_single rfl i k
/-- The right operand's row is the output's COLUMN; -/
theorem rhs_axis0 (i : S1024x512.Idx) (k : dot_S1024x2048_S512x2048_S1024x512_1_1_0_0_n_n.contr.Idx) :
    (dot_S1024x2048_S512x2048_S1024x512_1_1_0_0_n_n.rhsIdx i k 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
/-- its column is the contraction position too. -/
theorem rhs_axis1 (i : S1024x512.Idx) (k : dot_S1024x2048_S512x2048_S1024x512_1_1_0_0_n_n.contr.Idx) :
    (dot_S1024x2048_S512x2048_S1024x512_1_1_0_0_n_n.rhsIdx i k 1).val = (k ⟨0, by decide⟩).val :=
  dot_S1024x2048_S512x2048_S1024x512_1_1_0_0_n_n.rhsIdx_val_of_single rfl i k

/-- The product into a zero accumulator, at entry `(p, q)`: the sum over the 2048 shared columns of
    `l[p, j] · r[q, j]`. -/
theorem product_apply (l : FVec Ideal S1024x2048 .bf16) (r : FVec Ideal S512x2048 .bf16) (p : Fin 1024) (q : Fin 512) :
    matmul dot_S1024x2048_S512x2048_S1024x512_1_1_0_0_n_n none l r (constant S1024x512 .f32 0x00000000#32) (ix2 p q)
      = ∑ j : Fin 2048, l (ix2 p j) * r (ix2 q j) := by
  simp only [matmul]
  rw [Ideal.matmul_constant_zero_apply, ← Equiv.sum_comp (contrEquiv1 dot_S1024x2048_S512x2048_S1024x512_1_1_0_0_n_n 2048 rfl rfl).symm]
  refine Finset.sum_congr rfl fun j _ => ?_
  have hj := contrEquiv1_symm_val dot_S1024x2048_S512x2048_S1024x512_1_1_0_0_n_n 2048 rfl rfl j
  have el : dot_S1024x2048_S512x2048_S1024x512_1_1_0_0_n_n.lhsIdx (ix2 p q) ((contrEquiv1 dot_S1024x2048_S512x2048_S1024x512_1_1_0_0_n_n 2048 rfl rfl).symm j) = ix2 p j := funext fun a => Fin.ext (by
    match a with
    | ⟨0, _⟩ => exact lhs_axis0 _ _
    | ⟨1, _⟩ => exact (lhs_axis1 _ _).trans hj)
  have er : dot_S1024x2048_S512x2048_S1024x512_1_1_0_0_n_n.rhsIdx (ix2 p q) ((contrEquiv1 dot_S1024x2048_S512x2048_S1024x512_1_1_0_0_n_n 2048 rfl rfl).symm j) = ix2 q j := funext fun a => Fin.ext (by
    match a with
    | ⟨0, _⟩ => exact rhs_axis0 _ _
    | ⟨1, _⟩ => exact (rhs_axis1 _ _).trans hj)
  rw [el, er]

/-! ## The three stored values -/

/-- The reset's block is zero everywhere. -/
theorem reset_apply (y : S1024x512.Idx) : k0_pay1 (F := Ideal) y = 0 := by
  unfold k0_pay1
  rw [shapeCast_self]
  show Ideal.ofBits .f32 0x00000000#32 = 0
  exact Ideal.ofBits_zero_f32

/-- The update at entry `(p, q)`: what the running block held there, plus the contraction of the two input blocks'
    rows `p` and `q`. -/
theorem update_apply (xb : Vec Ideal S1024x2048 .f32) (wb : Vec Ideal S512x2048 .f32) (acc : Vec Ideal S1024x512 .f32)
    (p : Fin 1024) (q : Fin 512) :
    k0_pay2 (F := Ideal) xb wb acc (ix2 p q) = acc (ix2 p q) + ∑ j : Fin 2048, xb (ix2 p j) * wb (ix2 q j) := by
  unfold k0_pay2
  rw [shapeCast_self, shapeCast_self, addf_apply, product_apply]
  rfl

/-- The last store is `tanh` of the running block, entry by entry. -/
theorem squash_apply (acc : Vec Ideal S1024x512 .f32) (y : S1024x512.Idx) :
    k0_pay3 (F := Ideal) acc y = Ideal.tanh (acc y) := rfl

end Cert.CharEmbed.Body

end
-- ==== Proof.Stretches.lean ====
/-
  The mathematics of the certificate, with no program in sight.

  The kernel folds the batch and sequence axes of `x` into one row axis (8192 rows of 8192 columns), walks the
  column axis in four stretches of 2048, and for each stretch adds to a running [1024, 512] block the products of a
  row stretch of `x` with the matching row stretch of `W`; after the fourth stretch it applies `tanh`. The reference
  contracts the whole column axis at once and applies `tanh`. Over the extended reals addition is commutative and
  associative with neutral element zero, so a sum over 8192 columns is the sum over the four stretches of the sums
  inside each stretch (`sum_stretches`): no finiteness of the entries is needed. Everything else in the certificate
  is reading arrays at indices.

  Indices that the kernel computes from a grid point are given here as TOTAL functions (reduced modulo the extent), so
  that no statement carries a bound as a hypothesis; on the grid the reduction is the identity.
-/
import Idealize.ShloMosaic.PureOps.Ideal
import Idealize.ShloMosaic.Lib.ValueIdx

noncomputable section

namespace Cert.CharEmbed

open Idealize.ShloMosaic Idealize.ShloMosaic.ValueIdx

/-- The folded row-major row axis: row `p` of row block `i` (blocks of 1024 rows). -/
abbrev rowOf (i : ℕ) (p : Fin 1024) : Fin 8192 := ⟨(1024 * i + p.val) % 8192, Nat.mod_lt _ (by norm_num)⟩

/-- Column `j` of column stretch `k` (stretches of 2048 columns). -/
abbrev colOf (k : ℕ) (j : Fin 2048) : Fin 8192 := ⟨(2048 * k + j.val) % 8192, Nat.mod_lt _ (by norm_num)⟩

/-- What column stretch `k` contributes to entry `(r, q)`: the products of row `r` of the folded `x` with row `q`
    of `W` over the stretch's 2048 columns. -/
def stretchDot (X : (⟨2, ![8192, 8192]⟩ : Shape).Idx → EReal) (W : (⟨2, ![512, 8192]⟩ : Shape).Idx → EReal)
    (r : Fin 8192) (q : Fin 512) (k : ℕ) : EReal :=
  ∑ j : Fin 2048, X (ix2 r (colOf k j)) * W (ix2 q (colOf k j))

/-- The whole contraction of row `r` of the folded `x` with row `q` of `W`. -/
def rowDot (X : (⟨2, ![8192, 8192]⟩ : Shape).Idx → EReal) (W : (⟨2, ![512, 8192]⟩ : Shape).Idx → EReal)
    (r : Fin 8192) (q : Fin 512) : EReal :=
  ∑ v : Fin 8192, X (ix2 r v) * W (ix2 q v)

/-- A sum over the 8192 columns is the sum over the four stretches of the sums inside each: the columns
    `2048 k + j` (`k < 4`, `j < 2048`) are all of them, each once. Only commutativity and associativity of `+`. -/
theorem sum_stretches (g : Fin 8192 → EReal) :
    ∑ k ∈ Finset.range 4, ∑ j : Fin 2048, g (colOf k j) = ∑ v : Fin 8192, g v := by
  rw [← Fin.sum_univ_eq_sum_range (fun k => ∑ j : Fin 2048, g (colOf k j)) 4]
  rw [← Fintype.sum_prod_type']
  refine Fintype.sum_equiv (finProdFinEquiv (m := 4) (n := 2048)) _ _ ?_
  rintro ⟨k, j⟩
  refine congrArg g (Fin.ext ?_)
  have hk := k.isLt
  have hj := j.isLt
  show (2048 * k.val + j.val) % 8192 = j.val + 2048 * k.val
  omega

/-- The four stretches' contributions add up to the whole contraction. -/
theorem sum_stretchDot (X : (⟨2, ![8192, 8192]⟩ : Shape).Idx → EReal) (W : (⟨2, ![512, 8192]⟩ : Shape).Idx → EReal)
    (r : Fin 8192) (q : Fin 512) :
    ∑ k ∈ Finset.range 4, stretchDot X W r q k = rowDot X W r q :=
  sum_stretches fun v => X (ix2 r v) * W (ix2 q v)

/-- THE RESULT, as one function of the two argument arrays: entry `(b, s, d)` is `tanh` of the contraction of
    `x[b, s, :]` with `W[d, :]`. Both programs end holding it. -/
def embed (x : (⟨3, ![16, 512, 8192]⟩ : Shape).Idx → EReal) (W : (⟨2, ![512, 8192]⟩ : Shape).Idx → EReal) :
    (⟨3, ![16, 512, 512]⟩ : Shape).Idx → EReal :=
  fun i => Ideal.tanh (∑ v : Fin 8192, x (ix3 (i 0) (i 1) v) * W (ix2 (i 2) v))

end Cert.CharEmbed

end
-- ==== Proof.Blocks.lean ====
/-
  Where each input block sits in its array.

  Grid point `t` (of 32, in row-major order over 8 row blocks by 4 column stretches) is row block `t / 4`, column
  stretch `t % 4`. The block of the folded `x` staged there is rows `1024 (t / 4) + p`, columns `2048 (t % 4) + j`;
  the block of `W` is all 512 rows, the same columns; the output block is rows `1024 (t / 4) + p`, all 512 columns.
  So the contraction of the two blocks' rows is one column stretch's share of the whole contraction (`stretch_eq`).
-/
import proofs.«164144_j53936199303290_1_alg».proof.Proof.Gen.KernelIdeal.Frame
import proofs.«164144_j53936199303290_1_alg».proof.Proof.Stretches
import Idealize.ShloMosaic.Lib.Pipeline.Value
import Idealize.ShloMosaic.Lib.ValueIdx

noncomputable section

namespace Cert.CharEmbed.Blocks

open Cert.KernelIdeal Cert.KernelIdeal.Gen Idealize.ShloMosaic Idealize.ShloMosaic.TcCoe Idealize.ShloMosaic.ValueIdx Idealize.SL.Sem
open Cert.CharEmbed

variable {F : FTy → Type} [FloatOps F]
variable (m : (ℓ : Loc nD τ sig) → Buf (Elt F) ℓ)

/-- The block of the folded `x` at point `t`, -/
abbrev xblk (c : Dev nD) (t : Fin cfg0.N) : Vec F S1024x2048 .f32 := iblk m c 0 t
/-- the block of `W` there, -/
abbrev wblk (c : Dev nD) (t : Fin cfg0.N) : Vec F S512x2048 .f32 := iblk m c 1 t
/-- the folded `x` as the kernel finds it, -/
abbrev xarr (c : Dev nD) : Vec F S8192x8192 .f32 := V m c main_v0
/-- and `W`. -/
abbrev warr (c : Dev nD) : Vec F S512x8192 .f32 := V m c main_arg1

/-- The three windows' block indices at every grid point: row block `t / 4` and column stretch `t % 4`. -/
theorem index_facts : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0)

/-- Entry `(p, j)` of the `x` block at `t` is entry `(1024 (t / 4) + p, 2048 (t % 4) + j)` of the folded `x`. -/
theorem xblk_apply (c : Dev nD) (t : Fin cfg0.N) (p : Fin 1024) (j : Fin 2048) :
    xblk m c t (ix2 p j) = xarr m c (ix2 (rowOf (t.val / 4) p) (colOf (t.val % 4) j)) := by
  obtain ⟨h0, h1, -, -, -, -⟩ := index_facts t
  have hN : t.val < 32 := lt_of_lt_of_eq t.isLt (show cfg0.N = 32 from N_0)
  have hp := p.isLt
  have hj := j.isLt
  show iblk m c 0 t (ix2 p j) = _
  unfold iblk
  rw [View.read_apply]
  show V m c main_v0 _ = V m c main_v0 _
  refine congrArg (V m c main_v0) (funext fun a => Fin.ext ?_)
  match a with
  | ⟨0, _⟩ =>
    show win0_0.index t 0 * 1024 + 1 * p.val = (1024 * (t.val / 4) + p.val) % 8192
    rw [h0]; omega
  | ⟨1, _⟩ =>
    show win0_0.index t 1 * 2048 + 1 * j.val = (2048 * (t.val % 4) + j.val) % 8192
    rw [h1]; omega

/-- Entry `(q, j)` of the `W` block at `t` is entry `(q, 2048 (t % 4) + j)` of `W`. -/
theorem wblk_apply (c : Dev nD) (t : Fin cfg0.N) (q : Fin 512) (j : Fin 2048) :
    wblk m c t (ix2 q j) = warr m c (ix2 q (colOf (t.val % 4) j)) := by
  obtain ⟨-, -, h0, h1, -, -⟩ := index_facts t
  have hN : t.val < 32 := lt_of_lt_of_eq t.isLt (show cfg0.N = 32 from N_0)
  have hq := q.isLt
  have hj := j.isLt
  show iblk m c 1 t (ix2 q j) = _
  unfold iblk
  rw [View.read_apply]
  show V m c main_arg1 _ = V m c main_arg1 _
  refine congrArg (V m c main_arg1) (funext fun a => Fin.ext ?_)
  match a with
  | ⟨0, _⟩ =>
    show win0_1.index t 0 * 512 + 1 * q.val = q.val
    rw [h0]; omega
  | ⟨1, _⟩ =>
    show win0_1.index t 1 * 2048 + 1 * j.val = (2048 * (t.val % 4) + j.val) % 8192
    rw [h1]; omega

end Cert.CharEmbed.Blocks

end
-- ==== Proof.Running.lean ====
/-
  The running block, point by point.

  Within one row block the four column stretches are visited in order, and the scratch carries the running sum from
  one to the next: after the point at row block `t / 4`, stretch `t % 4`, its entry `(p, q)` is the sum of the
  contributions of stretches `0 … t % 4` to row `1024 (t / 4) + p` of the folded `x` against row `q` of `W`
  (`scratch_eq`, by induction on the point: the first stretch starts from the zero block, each later one adds its
  share to what the point before left). At a last stretch all four shares are in, which is the whole contraction
  (`Stretches.sum_stretchDot`), and the output block is its `tanh` (`out_eq`).
-/
import proofs.«164144_j53936199303290_1_alg».proof.Proof.Pieces
import proofs.«164144_j53936199303290_1_alg».proof.Proof.Payloads
import proofs.«164144_j53936199303290_1_alg».proof.Proof.Blocks

noncomputable section

namespace Cert.CharEmbed.Running

open Cert.KernelIdeal Cert.KernelIdeal.Gen Idealize.ShloMosaic Idealize.ShloMosaic.TcCoe Idealize.ShloMosaic.ValueIdx Idealize.SL.Sem
open Cert.CharEmbed Cert.CharEmbed.Blocks Cert.CharEmbed.Cases Cert.CharEmbed.Body

variable (m : (ℓ : Loc nD τ sig) → Buf (Elt Ideal) ℓ)

/-- The contraction of the two blocks staged at point `t`, rows `p` and `q`, is stretch `t % 4`'s share of the
    contraction of row `1024 (t / 4) + p` of the folded `x` with row `q` of `W`. -/
theorem stretch_eq (c : Dev nD) (t : Fin cfg0.N) (p : Fin 1024) (q : Fin 512) :
    ∑ j : Fin 2048, xblk m c t (ix2 p j) * wblk m c t (ix2 q j)
      = stretchDot (xarr m c) (warr m c) (rowOf (t.val / 4) p) q (t.val % 4) := by
  unfold stretchDot
  refine Finset.sum_congr rfl fun j _ => ?_
  rw [xblk_apply m c t p j, wblk_apply m c t q j]

/-- At a first stretch the scratch ends at that stretch's share alone. -/
theorem scratch_at_first (c : Dev nD) (t : Fin cfg0.N) (h0 : t.val % 4 = 0) (p : Fin 1024) (q : Fin 512) :
    (outsAt0 m c t.val t.isLt).2 (ix2 p q)
      = ∑ k ∈ Finset.range (t.val % 4 + 1), stretchDot (xarr m c) (warr m c) (rowOf (t.val / 4) p) q k := by
  have h1 : ¬t.val % 4 = 3 := by omega
  rw [outsAt0_A m c t h0 h1]
  dsimp only
  refine (congrFun (scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (wblk m c t)) (ix2 p q)).trans ?_
  refine (update_apply (xblk m c t) (wblk m c t) (k0_pay1 (F := Ideal)) p q).trans ?_
  rw [reset_apply, zero_add, stretch_eq m c t p q, h0, Finset.sum_range_one]

/-- At a later stretch it ends at what the point before left plus this stretch's share. -/
theorem scratch_at_later (c : Dev nD) (t : Fin cfg0.N) (h0 : ¬t.val % 4 = 0)
    (prev : ∀ (p : Fin 1024) (q : Fin 512), (outsAt0 m c (t.val - 1) (Nat.lt_of_le_of_lt (Nat.sub_le _ _) t.isLt)).2 (ix2 p q)
      = ∑ k ∈ Finset.range ((t.val - 1) % 4 + 1), stretchDot (xarr m c) (warr m c) (rowOf ((t.val - 1) / 4) p) q k)
    (p : Fin 1024) (q : Fin 512) :
    (outsAt0 m c t.val t.isLt).2 (ix2 p q)
      = ∑ k ∈ Finset.range (t.val % 4 + 1), stretchDot (xarr m c) (warr m c) (rowOf (t.val / 4) p) q k := by
  have hrow : (t.val - 1) / 4 = t.val / 4 := by omega
  have hcnt : (t.val - 1) % 4 + 1 = t.val % 4 := by omega
  have step : k0_pay2 (F := Ideal) (xblk m c t) (wblk m c t) (outsAt0 m c (t.val - 1) (Nat.lt_of_le_of_lt (Nat.sub_le _ _) t.isLt)).2 (ix2 p q)
      = ∑ k ∈ Finset.range (t.val % 4 + 1), stretchDot (xarr m c) (warr m c) (rowOf (t.val / 4) p) q k := by
    refine (update_apply (xblk m c t) (wblk m c t) _ p q).trans ?_
    rw [prev p q, stretch_eq m c t p q, hrow, hcnt, Finset.sum_range_succ]
  by_cases h1 : t.val % 4 = 3
  · rw [outsAt0_C m c t h0 h1]
    dsimp only
    exact (congrFun (scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2) (ix2 p q)).trans step
  · rw [outsAt0_B m c t h0 h1]
    dsimp only
    exact (congrFun (scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (wblk m c t) (outsAt0 m c (t.val - 1) (Nat.lt_of_le_of_lt (Nat.sub_le _ _) t.isLt)).2) (ix2 p q)).trans step

/-- THE RUNNING SUM: after point `n` the scratch's entry `(p, q)` is the sum of the shares of stretches `0 … n % 4`. -/
theorem scratch_eq (c : Dev nD) (n : ℕ) : ∀ (hn : n < cfg0.N) (p : Fin 1024) (q : Fin 512),
    (outsAt0 m c n hn).2 (ix2 p q)
      = ∑ k ∈ Finset.range (n % 4 + 1), stretchDot (xarr m c) (warr m c) (rowOf (n / 4) p) q k := by
  induction n with
  | zero => exact fun hn p q => scratch_at_first m c ⟨0, hn⟩ rfl p q
  | succ n ih =>
    intro hn p q
    by_cases h0 : (n + 1) % 4 = 0
    · exact scratch_at_first m c ⟨n + 1, hn⟩ h0 p q
    · exact scratch_at_later m c ⟨n + 1, hn⟩ h0 (fun p q => ih (Nat.lt_of_succ_lt hn) p q) p q

/-- At a last stretch the output block's entry `(p, q)` is `tanh` of the whole contraction of row
    `1024 (t / 4) + p` of the folded `x` with row `q` of `W`. -/
theorem out_eq (c : Dev nD) (t : Fin cfg0.N) (h1 : t.val % 4 = 3) (p : Fin 1024) (q : Fin 512) :
    (outsAt0 m c t.val t.isLt).1 (ix2 p q) = Ideal.tanh (rowDot (xarr m c) (warr m c) (rowOf (t.val / 4) p) q) := by
  have h0 : ¬t.val % 4 = 0 := by omega
  have hs := scratch_eq m c t.val t.isLt p q
  rw [h1, sum_stretchDot] at hs
  rw [← hs, outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2) (ix2 p q)).trans ?_
  refine (squash_apply _ (ix2 p q)).trans (congrArg Ideal.tanh ?_)
  exact (congrFun (scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2) (ix2 p q)).symm

end Cert.CharEmbed.Running

end
-- ==== Proof.Fold.lean ====
/-
  The two changes of shape around the kernel, read at an index.

  Before the kernel the batch and sequence axes of `x` are folded into one row axis, and after it the result's row
  axis is unfolded again. Both are row-major reinterpretations, so entry `(b, s, ·)` of the three-axis array is entry
  `(512 b + s, ·)` of the two-axis one.
-/
import Idealize.ShloMosaic.Lib.Pipeline.Value
import Idealize.ShloMosaic.Lib.ValueIdx

noncomputable section

namespace Cert.CharEmbed

open Idealize.ShloMosaic Idealize.ShloMosaic.ValueIdx

/-- The folded row of batch `b`, position `s`. -/
abbrev foldRow (b : Fin 16) (s : Fin 512) : Fin 8192 :=
  ⟨512 * b.val + s.val, by have := b.isLt; have := s.isLt; omega⟩

/-- Folding: row `512 b + s`, column `v` of the folded array is entry `(b, s, v)` of the original. -/
theorem fold_apply {α : Type} (x : (⟨3, ![16, 512, 8192]⟩ : Shape).Idx → α)
    (h : (⟨3, ![16, 512, 8192]⟩ : Shape).ShapeCasts ⟨2, ![8192, 8192]⟩) (b : Fin 16) (s : Fin 512) (v : Fin 8192) :
    shapeCast (⟨2, ![8192, 8192]⟩ : Shape) x h (ix2 (foldRow b s) v) = x (ix3 b s v) := by
  refine shapeCast_apply x h _ (ix3 b s v) ?_
  rw [Shape.rowMajor_val_three, Shape.rowMajor_val_two]
  show (b.val * 512 + s.val) * 8192 + v.val = (512 * b.val + s.val) * 8192 + v.val
  omega

/-- Unfolding: entry `(b, s, d)` of the unfolded result is row `512 b + s`, column `d` of the folded one. -/
theorem unfold_apply {α : Type} (y : (⟨2, ![8192, 512]⟩ : Shape).Idx → α)
    (h : (⟨2, ![8192, 512]⟩ : Shape).ShapeCasts ⟨3, ![16, 512, 512]⟩) (b : Fin 16) (s : Fin 512) (d : Fin 512) :
    shapeCast (⟨3, ![16, 512, 512]⟩ : Shape) y h (ix3 b s d) = y (ix2 (foldRow b s) d) := by
  refine shapeCast_apply y h _ (ix2 (foldRow b s) d) ?_
  rw [Shape.rowMajor_val_two, Shape.rowMajor_val_three]
  show (512 * b.val + s.val) * 512 + d.val = (b.val * 512 + s.val) * 512 + d.val
  omega

end Cert.CharEmbed

end
-- ==== Proof.KernelValue.lean ====
/-
  What the idealized kernel's result holds after its run: `embed` of the two arguments.

  Only the points at a last column stretch write their output block back, and there the block is `tanh` of the whole
  contraction (`Running.out_eq`). The eight such points' blocks are the eight row blocks of the [8192, 512] array, so
  they cover it, and it ends at `tanh (row r of the folded x · row q of W)` at every `(r, q)` (`folded_final`). The
  folded `x` is the host's row-major fold of `x` made before the kernel, and the program's result is the host's
  unfold of that array made after it; reading both at an index (`Fold.fold_apply`, `Fold.unfold_apply`) gives
  `embed` (`result_eq`).
-/
import proofs.«164144_j53936199303290_1_alg».proof.Proof.Running
import proofs.«164144_j53936199303290_1_alg».proof.Proof.Fold
import Idealize.ShloMosaic.Lib.StableHlo.Run

noncomputable section

namespace Cert.CharEmbed.Kernel

open Cert.KernelIdeal Cert.KernelIdeal.Gen Idealize.ShloMosaic Idealize.ShloMosaic.TcCoe Idealize.ShloMosaic.ValueIdx Idealize.SL.Sem
open Idealize.ShloMosaic.Pipeline (Dat)
open Cert.CharEmbed Cert.CharEmbed.Blocks Cert.CharEmbed.Running

variable (m : (ℓ : Loc nD τ sig) → Buf (Elt Ideal) ℓ) (ρ : Dev nD → PrngReg)

/-- The [8192, 512] array the kernel writes: `tanh` of the contraction of row `r` of the folded `x` with row `q`
    of `W`, both as the kernel finds them. -/
def folded (c : Dev nD) : Buf (Elt Ideal) ((c : Thread nD τ).loc main_v1) :=
  fun i => Ideal.tanh (rowDot (xarr m c) (warr m c) (i 0) (i 1))

/-- What a point that writes back writes is its block of `folded`. -/
theorem flushed_eq (c : Dev nD) (t : Fin cfg0.N) (hf : (cfg0.win 2).flush t = true) :
    (dats m 0 c).flushed 2 t = ((cfg0.win 2).blk t).view.read (Elt Ideal) (folded m c) := by
  have h1 : t.val % 4 = 3 := (flush0_2 t).mp hf
  obtain ⟨-, -, -, -, i0, i1⟩ := index_facts t
  have hN : t.val < 32 := lt_of_lt_of_eq t.isLt (show cfg0.N = 32 from N_0)
  show (cfg0.win 2).cut (grid0.coords t) ((dats m 0 c).after 2 t) = _
  rw [after0_2]
  funext j
  show (outsAt0 m c t.val t.isLt).1 j = folded m c (((cfg0.win 2).blk t).view.emb j)
  refine (congrArg (outsAt0 m c t.val t.isLt).1 (eq_ix2 j)).trans ?_
  refine (out_eq m c t h1 (j 0) (j 1)).trans ?_
  have hj0 : (j 0).val < 1024 := (j 0).isLt
  have hj1 : (j 1).val < 512 := (j 1).isLt
  have e0 : (((cfg0.win 2).blk t).view.emb j) 0 = rowOf (t.val / 4) (j 0) := Fin.ext (by
    show win0_2.index t (0 : Fin 2) * 1024 + 1 * (j 0).val = (1024 * (t.val / 4) + (j 0).val) % 8192
    rw [i0]; omega)
  have e1 : (((cfg0.win 2).blk t).view.emb j) 1 = j 1 := Fin.ext (by
    show win0_2.index t (1 : Fin 2) * 512 + 1 * (j 1).val = (j 1).val
    rw [i1]; omega)
  show _ = Ideal.tanh (rowDot (xarr m c) (warr m c) ((((cfg0.win 2).blk t).view.emb j) 0) ((((cfg0.win 2).blk t).view.emb j) 1))
  rw [e0, e1]

/-- An index of the array is in point `t`'s output block iff each coordinate is in the block's range. -/
theorem mem_block (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v1).slice (win0_2.rect t)).set ↔ _
  rw [View.set_slice_whole, Rect.mem_set_unit]
  exact Iff.rfl

/-- Row `r` lies in the output block of the last-stretch point of row block `r / 1024`. -/
theorem covered (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 32 := N_0
  let t : Fin cfg0.N := ⟨4 * ((i 0).val / 1024) + 3, by rw [hN]; omega⟩
  have ht : t.val = 4 * ((i 0).val / 1024) + 3 := rfl
  obtain ⟨-, -, -, -, i0, i1⟩ := index_facts t
  refine ⟨t, (flush0_2 t).mpr (by rw [ht]; omega), ?_⟩
  rw [mem_block]
  intro a
  match a with
  | ⟨0, _⟩ =>
    show win0_2.index t (0 : Fin 2) * 1024 ≤ (i 0).val ∧ (i 0).val < win0_2.index t (0 : Fin 2) * 1024 + 1024
    rw [i0, ht]; omega
  | ⟨1, _⟩ =>
    show win0_2.index t (1 : Fin 2) * 512 ≤ (i 1).val ∧ (i 1).val < win0_2.index t (1 : Fin 2) * 512 + 512
    rw [i1]; omega

/-- The array after the run is `folded`. -/
theorem folded_final (c : Dev nD) : (dats m 0 c).arrAt 2 cfg0.N = folded m c :=
  (dats m 0 c).arrAt_eq_of_cover 2 (folded m c) (flushed_eq m c) covered

/-- The folded `x` the kernel finds is the host's fold of the argument. -/
theorem xarr_eq (c : Dev nD) :
    xarr m c = shapeCast S8192x8192 (m ((c : Thread nD τ).loc main_arg0)) shapeCasts_S16x512x8192_S8192x8192 := by
  show StableHlo.after hostOps0 (fun b => m (c, b)) (Proc.devRef .tc main_v0) = _
  after_results
  rfl

/-- `W` is found as launched. -/
theorem warr_eq (c : Dev nD) : warr m c = m ((c : Thread nD τ).loc main_arg1) := V_main_arg1 m c

/-- The program's result after the host's unfold. -/
theorem tail_eq (c : Dev nD) :
    Pipeline.afterTail₀ cfgs (dats m) 0 (V0 m) [hostOps1] c main_v2
      = shapeCast S16x512x512 (folded m c) shapeCasts_S8192x512_S16x512x512 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = folded m c :=
    (Pipeline.withArrays_arr spec0 launch0.win.arr_inj c _ _ 2).trans (folded_final m c)
  rw [hw]
  rfl

/-- The two arguments as launched, at their literal vector types. -/
abbrev xarg (c : Dev nD) : Vec Ideal S16x512x8192 .f32 := m ((c : Thread nD τ).loc main_arg0)
abbrev warg (c : Dev nD) : Vec Ideal S512x8192 .f32 := m ((c : Thread nD τ).loc main_arg1)

/-- THE RESULT: the program's result array is `embed` of the two arguments as launched. -/
theorem result_eq (c : Dev nD) :
    Pipeline.afterTail₀ cfgs (dats m) 0 (V0 m) [hostOps1] c main_v2
      = embed (m ((c : Thread nD τ).loc main_arg0)) (m ((c : Thread nD τ).loc main_arg1)) := by
  rw [tail_eq]
  funext i
  obtain ⟨b, s, d, rfl⟩ : ∃ (b : Fin 16) (s : Fin 512) (d : Fin 512), i = ix3 b s d := ⟨i 0, i 1, i 2, eq_ix3 i⟩
  refine (unfold_apply (folded m c) shapeCasts_S8192x512_S16x512x512 b s d).trans ?_
  show Ideal.tanh (rowDot (xarr m c) (warr m c) (foldRow b s) d)
    = Ideal.tanh (∑ v : Fin 8192, xarg m c (ix3 b s v) * warg m c (ix2 d v))
  unfold rowDot
  refine congrArg Ideal.tanh (Finset.sum_congr rfl fun v _ => ?_)
  rw [xarr_eq m c, warr_eq m c]
  exact congrArg (fun z => z * warg m c (ix2 d v)) (fold_apply (xarg m c) shapeCasts_S16x512x8192_S8192x8192 b s v)

/-- The idealized kernel's run, read: the result at `embed` of the arguments, the arguments unchanged. -/
theorem run : θ_run defs (onTc (τ := τ) (main (F := Ideal))) ⟨m, fun _ => 0, ρ⟩ fun r => ∀ c : Dev nD,
      r.2.mem ((c : Thread nD τ).loc main_v2) = embed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.CharEmbed.Kernel

end
-- ==== Proof.Reference.lean ====
/-
  The reference's result is `embed` of its two arguments.

  The reference contracts axis 2 of `x` with axis 1 of `W` in one host operation and applies `tanh`; over the
  extended reals the contraction at `(b, s, d)` is the sum over the 8192 columns of `x[b, s, v] · W[d, v]`, and the
  host's `tanh` is the same function as the kernel's.
-/
import proofs.«164144_j53936199303290_1_alg».proof.Proof.Gen.ReferenceIdeal.Read
import proofs.«164144_j53936199303290_1_alg».proof.Proof.Stretches

noncomputable section

namespace Cert.CharEmbed.Ref

open Cert.ReferenceIdeal Cert.ReferenceIdeal.Gen Idealize.ShloMosaic Idealize.ShloMosaic.ValueIdx Cert.CharEmbed

/-- The left operand is read at `(b, s, v)`; -/
theorem left_index (i : S16x512x512.Idx) (v : Fin 8192) : Read.lidx_main_v0 i v = ix3 (i 0) (i 1) v :=
  funext fun a => Fin.ext (by
    match a with
    | ⟨0, _⟩ => rfl
    | ⟨1, _⟩ => rfl
    | ⟨2, _⟩ => rfl)
/-- the right one at `(d, v)`. -/
theorem right_index (i : S16x512x512.Idx) (v : Fin 8192) : Read.ridx_main_v0 i v = ix2 (i 2) v :=
  funext fun a => Fin.ext (by
    match a with
    | ⟨0, _⟩ => rfl
    | ⟨1, _⟩ => rfl)

/-- The reference's term, over the extended reals, is `embed`. -/
theorem result_eq (x : FVec Ideal S16x512x8192 .f32) (w : FVec Ideal S512x8192 .f32) :
    Host.tanh (Host.dotGeneral dot_S16x512x8192_S512x8192_S16x512x512_2_1_01_0_n_n none x w) = embed x w := by
  funext i
  refine (Read.val_main_v1_apply (F := Ideal) x w i).trans ?_
  rw [Read.val_main_v0_apply]
  simp only [left_index, right_index]
  rfl

end Cert.CharEmbed.Ref

end
-- ==== Proof.lean ====
/-
  A character-embedding layer: `tanh (x · Wᵀ)` for `x` of shape [16, 512, 8192] and `W` of shape [512, 8192],
  contracted over the 8192 columns.

  The kernel folds the first two axes of `x` into 8192 rows, tiles rows by 1024 and columns by 2048, keeps all 512
  rows of `W`, and for each row block walks the four column stretches in order, adding each stretch's products into a
  running [1024, 512] block that starts at zero; after the fourth stretch it writes `tanh` of the running block as that
  row block's result, and the result's rows are unfolded again. The reference contracts the whole column axis in one
  operation and applies `tanh`.

  Over the extended reals the narrowing of the operands before the product is the identity, and addition is commutative
  and associative with neutral element zero, so `((0 + s₀) + s₁) + s₂) + s₃` over the four stretches IS the sum over all
  8192 columns (Proof/Stretches.lean): both programs end holding `embed x W`, entry `(b, s, d)` being
  `tanh (∑ᵥ x[b, s, v] · W[d, v])`. No finiteness of the inputs is used, and the ideal pass rewrote nothing, so the
  idealization claim is trivial.

  The modules: Stretches (the sum law and `embed`), Fold (the two row-major reshapes at an index), Payloads (the body's
  three stored values at an entry), Pieces (what each control case of the body leaves, as those values), Blocks (where
  each staged block sits in its array), Running (the running block after every grid point, by induction on the point),
  KernelValue (the written-back blocks cover the result; the kernel's run ends at `embed`), Reference (so does the
  reference's).
-/
import proofs.«164144_j53936199303290_1_alg».proof.Defs
import proofs.«164144_j53936199303290_1_alg».proof.Proof.Gen.Kernel
import proofs.«164144_j53936199303290_1_alg».proof.Proof.Gen.Kernel.Frame
import proofs.«164144_j53936199303290_1_alg».proof.Proof.Gen.KernelIdeal
import proofs.«164144_j53936199303290_1_alg».proof.Proof.Gen.KernelIdeal.Frame
import proofs.«164144_j53936199303290_1_alg».proof.Proof.Gen.ReferenceIdeal
import proofs.«164144_j53936199303290_1_alg».proof.Proof.Gen.ReferenceIdeal.Run
import proofs.«164144_j53936199303290_1_alg».proof.Proof.Gen.ReferenceIdeal.Read
import proofs.«164144_j53936199303290_1_alg».proof.Proof.Gen.Pre_finite_inputs
import proofs.«164144_j53936199303290_1_alg».proof.Proof.KernelValue
import proofs.«164144_j53936199303290_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is two host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, the idealized kernel's result and the idealized reference's both end at `embed` of
    those arguments: the running sum over the four column stretches is the whole contraction. -/
theorem algebraic : Cert.algebraic_KernelIdeal_ReferenceIdeal := by
  intro m ρ m' ρ' _ hagree
  refine ⟨fun c => Cert.CharEmbed.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.CharEmbed.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.CharEmbed.Ref.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
